-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg5 : FVec F S512 .f32) (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_cst_14 : FVec F S_ .f32 := constant S_ .f32 0x00000000#32
  let main_v39 : FVec F S512 .f32 := broadcastInDim S512 ![] bcast_S_S512 main_cst_14
  let main_v40 : IVec S512 1 := cmpf .oge main_arg5 main_v39
  let main_c_15 : IVec S_ 1 := constantI S_ 1 1#1
  let main_v41 : IVec S_ 1 := (fun x v => Host.reduce IntOp.andi x v reducesTo_S512_S_d0 h_S_) main_v40 main_c_15
  let main_v42 : IVec S_ 1 := andi main_v38 main_v41
  main_v42

def fn_part1 {F : FTy → Type} [FloatOps F] (main_arg4 : FVec F S512 .f32) (main_arg5 : FVec F S512 .f32) (main_arg6 : FVec F S512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg5 main_arg7 main_v33

def fn {F : FTy → Type} [FloatOps F] (main_arg0 : FVec F S32768x512 .f32) (main_arg1 : FVec F S32768x512 .f32) (main_arg2 : FVec F S512x512 .f32) (main_arg3 : FVec F S512 .f32) (main_arg4 : FVec F S512 .f32) (main_arg5 : FVec F S512 .f32) (main_arg6 : FVec F S512 .f32) (main_arg7 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32768x512 : Shape := ⟨2, ![32768, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S2048x512 : Shape := ⟨2, ![2048, 512]⟩

abbrev nBuf : Space → Nat
  | .hbm => 23
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x1, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .bf16⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S1x512, .f32⟩
  | .hbm, ⟨22, _⟩ => ⟨S32768x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S512x512, .bf16⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  transposes_S512x512_S512x512_1_0 : S512x512.Transposes [1, 0] S512x512
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S32768x512.size a
  hwx0_4 : ∀ i : grid0.Coords, EltTy.bits .f32 = 32 ∨ (Rect.block (s := S32768x512) S2048x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S32768x512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S1x512, .f32⟩
  | .hbm, ⟨20, _⟩ => ⟨S32768x512, .f32⟩
  | .hbm, ⟨21, _⟩ => ⟨S32768x512, .f32⟩
  | .hbm, ⟨22, _⟩ => ⟨S1x512, .f32⟩
  | .hbm, ⟨23, _⟩ => ⟨S32768x512, .f32⟩
  | .hbm, ⟨24, _⟩ => ⟨S32768x512, .f32⟩
  | .hbm, ⟨25, _⟩ => ⟨S1x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S512 : S_.BroadcastsInDim S512 (![] : Fin 0 → Fin S512.rank)
  dot_S32768x512_S512x512_S32768x512_1_1_0_0_n_n_wf : DotDims.WF S32768x512 S512x512 S32768x512 [1] [1] [0] [0] [] []

variable [Facts₀]

def dot_S32768x512_S512x512_S32768x512_1_1_0_0_n_n : DotDims S32768x512 S512x512 S32768x512 where
  lhsContracting := [1]
  rhsContracting := [1]
  lhsNonContracting := [0]
  rhsNonContracting := [0]
  lhsBatch := []
  rhsBatch := []
  wf := dot_S32768x512_S512x512_S32768x512_1_1_0_0_n_n_wf

class Facts : Prop extends Facts₀ where

variable [Facts]
-- ==== Proof.Law.lean ====
/-
  The arithmetic that joins the two programs.

  The reference applies a linear map, then normalises each output feature `o` with fixed statistics and an affine pair:
    `((Σₖ x[b,k]·W[o,k] + bias[o] − mean[o]) · rsqrt(var[o] + ε)) · γ[o] + β[o]`.
  The kernel folds the normalisation into the linear map beforehand: with `s[o] = rsqrt(var[o] + ε) · γ[o]` it uses the
  scaled weight `W[o,k]·s[o]` and the folded bias `(bias[o] − mean[o])·s[o] + β[o]`:
    `Σₖ x[b,k]·(W[o,k]·s[o]) + ((bias[o] − mean[o])·s[o] + β[o])`.
  The two agree by distributing `s[o]` over the sum and over `bias − mean`. On the extended reals that law fails at
  infinities, so it is proved where every entry is a real number and `var[o] ≥ 0`: then `var[o] + ε > 0`, `rsqrt` of it is the
  real `(√(var[o] + ε))⁻¹`, and the identity is one of real arithmetic. Both programs then add `y[b,o]` and multiply by it.
-/
import Idealize.ShloMosaic.PureOps.Ideal
import Idealize.ShloMosaic.Lib.ValueIdx

noncomputable section

namespace Cert.FoldedNorm

open Idealize.ShloMosaic Idealize.ShloMosaic.ValueIdx

/-- A finite sum of reals read as extended reals term by term is the sum read as an extended real. -/
theorem coe_sum {K : Type} (s : Finset K) (f : K → ℝ) :
    ∑ k ∈ s, ((f k : ℝ) : EReal) = ((∑ k ∈ s, f k : ℝ) : EReal) := by
  classical
  refine Finset.induction_on s (by simp) ?_
  intro a s ha ih
  rw [Finset.sum_insert ha, Finset.sum_insert ha, ih, EReal.coe_add]

/-- The word of `ε` (the f32 nearest `1e-5`, a normal number with sign bit clear) denotes a positive real. -/
theorem eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The law at one output entry, over reals: scaling each weight and the centred bias by `s = (√(v + e))⁻¹ · n`
    beforehand is scaling the centred linear form afterwards. -/
theorem fold_scalar {K : Type} [Fintype K] (xr wr : K → ℝ) (b mu v n nb e : ℝ) (hv : 0 ≤ v) (he : 0 < e) :
    (∑ k, (xr k : EReal) * ((wr k : EReal) * (Ideal.rsqrt ((v : EReal) + (e : EReal)) * (n : EReal))))
        + (((b : EReal) - (mu : EReal)) * (Ideal.rsqrt ((v : EReal) + (e : EReal)) * (n : EReal)) + (nb : EReal))
      = ((((∑ k, (xr k : EReal) * (wr k : EReal)) + (b : EReal)) - (mu : EReal))
            * Ideal.rsqrt ((v : EReal) + (e : EReal))) * (n : EReal) + (nb : EReal) := by
  have hpos : 0 < v + e := by linarith
  have hr : Ideal.rsqrt ((v : EReal) + (e : EReal)) = (((Real.sqrt (v + e))⁻¹ : ℝ) : EReal) := by
    rw [← EReal.coe_add, Ideal.rsqrt_coe, if_neg (not_lt.mpr hpos.le), if_neg hpos.ne']
  rw [hr]
  generalize (Real.sqrt (v + e))⁻¹ = r
  simp only [← EReal.coe_mul, ← EReal.coe_sub, ← EReal.coe_add, coe_sum]
  rw [EReal.coe_eq_coe_iff]
  have hs : ∑ k, xr k * (wr k * (r * n)) = (∑ k, xr k * wr k) * (r * n) := by
    rw [Finset.sum_mul]; exact Finset.sum_congr rfl fun k _ => by ring
  rw [hs]; ring

/-! ## The two programs' results, index by index -/

abbrev SBxF : Shape := ⟨2, ![32768, 512]⟩
abbrev SFxF : Shape := ⟨2, ![512, 512]⟩
abbrev SF : Shape := ⟨1, ![512]⟩

variable (x y : SBxF.Idx → EReal) (W : SFxF.Idx → EReal) (bias mean var γ β : SF.Idx → EReal)

/-- The reference before `y` enters: the linear form, centred, scaled by `rsqrt(var + ε)`, then by `γ`, plus `β`. -/
def normOfLinear (i : SBxF.Idx) : EReal :=
  ((((∑ k : Fin 512, x (ix2 (i 0) k) * W (ix2 (i 1) k)) + bias (ix1 (i 1))) - mean (ix1 (i 1)))
      * Ideal.rsqrt (var (ix1 (i 1)) + Ideal.ofBits .f32 0x3727C5AC#32)) * γ (ix1 (i 1)) + β (ix1 (i 1))

/-- The kernel before `y` enters: the linear form over the pre-scaled weight, plus the folded bias. -/
def linearOfFolded (i : SBxF.Idx) : EReal :=
  (∑ k : Fin 512, x (ix2 (i 0) k)
      * (W (ix2 (i 1) k) * (Ideal.rsqrt (var (ix1 (i 1)) + Ideal.ofBits .f32 0x3727C5AC#32) * γ (ix1 (i 1)))))
    + ((bias (ix1 (i 1)) - mean (ix1 (i 1)))
        * (Ideal.rsqrt (var (ix1 (i 1)) + Ideal.ofBits .f32 0x3727C5AC#32) * γ (ix1 (i 1))) + β (ix1 (i 1)))

/-- The reference's result: `(norm + y) · y`. -/
def refResult : SBxF.Idx → EReal := fun i => (normOfLinear x W bias mean var γ β i + y i) * y i

/-- The kernel's result: `(folded linear + y) · y`. -/
def kernelResult : SBxF.Idx → EReal := fun i => (linearOfFolded x W bias mean var γ β i + y i) * y i

/-- Where every entry of `x`, `W`, `bias`, `mean`, `var`, `γ`, `β` is a real and `var ≥ 0`, the folded form is the
    reference's, entry by entry. (`y` is not constrained: it enters both sides the same way.) -/
theorem kernelResult_eq
    (hx : ∀ i, ∃ r : ℝ, x i = (r : EReal)) (hW : ∀ i, ∃ r : ℝ, W i = (r : EReal))
    (hb : ∀ o, ∃ r : ℝ, bias o = (r : EReal)) (hm : ∀ o, ∃ r : ℝ, mean o = (r : EReal))
    (hv : ∀ o, ∃ r : ℝ, var o = (r : EReal)) (hg : ∀ o, ∃ r : ℝ, γ o = (r : EReal))
    (hβ : ∀ o, ∃ r : ℝ, β o = (r : EReal)) (hv0 : ∀ o, 0 ≤ var o) :
    kernelResult x y W bias mean var γ β = refResult x y W bias mean var γ β := by
  funext i
  unfold kernelResult refResult
  congr 2
  unfold linearOfFolded normOfLinear
  choose xr hxr using hx
  choose wr hwr using hW
  obtain ⟨b, hb⟩ := hb (ix1 (i 1))
  obtain ⟨mu, hm⟩ := hm (ix1 (i 1))
  obtain ⟨v, hv⟩ := hv (ix1 (i 1))
  obtain ⟨n, hg⟩ := hg (ix1 (i 1))
  obtain ⟨nb, hβ⟩ := hβ (ix1 (i 1))
  obtain ⟨e, he, hε⟩ := eps_pos
  have hv0' : 0 ≤ v := by
    have := hv0 (ix1 (i 1)); rw [hv] at this; exact_mod_cast this
  simp only [hxr, hwr, hb, hm, hv, hg, hβ, hε]
  exact fold_scalar (fun k => xr (ix2 (i 0) k)) (fun k => wr (ix2 (i 1) k)) b mu v n nb e hv0' he

end Cert.FoldedNorm

end
-- ==== Proof.Domain.lean ====
/-
  What the precondition says of the arguments.

  The precondition is a conjunction of nine array-wide tests: for each of the eight arguments, `|a| < +∞` at every entry;
  and `var ≥ 0` at every entry. On the extended reals `|a| = max a (−a)` is below `+∞` exactly when `a` is neither infinity,
  that is, when `a` is a real number. Read here: every entry of the seven arguments the arithmetic law needs is a real, and
  every entry of `var` is nonnegative. (The test on `y` is not used.)
-/
import proofs.«410438_j57415122813212_3_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.FoldedNorm

open Idealize.ShloMosaic Cert.Pre_finite_inputs

instance : Subsingleton S_.Idx := ⟨fun a b => funext fun d => d.elim0⟩

/-- The word `0x7F800000` is `+∞`. -/
theorem ofBits_inf : Ideal.ofBits .f32 0x7F800000#32 = ⊤ := by
  simp [Ideal.ofBits, Ideal.ieee]

/-- The word `0x00000000` is `0`. -/
theorem ofBits_zero : Ideal.ofBits .f32 0x00000000#32 = 0 := by
  simp [Ideal.ofBits, Ideal.ieee]

/-- An extended real whose absolute value is below `+∞` is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- An extended real that tests `≥ +0.0` is nonnegative. -/
theorem nonneg_of_ge_zero (a : EReal)
    (h : Ideal.cmp .oge a (Ideal.ofBits .f32 0x00000000#32) = 1#1) : 0 ≤ a := by
  rw [ofBits_zero] at h
  by_contra hn
  simp [Ideal.cmp, hn] at h

variable [Cert.Pre_finite_inputs.Facts]

/-- From the precondition: `x`, `W`, `bias`, `mean`, `var`, `γ`, `β` hold reals, and `var` is nonnegative. -/
theorem of_pre (a0 a1 : FVec Ideal S32768x512 .f32) (a2 : FVec Ideal S512x512 .f32)
    (a3 a4 a5 a6 a7 : FVec Ideal S512 .f32)
    (h : fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, (0 : EReal) ≤ a5 i) := by
  have h0 := congrFun h ValueIdx.ix0
  dsimp only [fn, fn_part1, fn_part2] at h0
  obtain ⟨h0, h8⟩ := IntOp.andi_eq_one.mp h0
  obtain ⟨h0, h7⟩ := IntOp.andi_eq_one.mp h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, -⟩ := IntOp.andi_eq_one.mp h0
  refine ⟨fun i => real_of_abs_lt_inf _ (Host.reduce_andi_all _ _ _ _ _ h0 i),
    fun i => real_of_abs_lt_inf _ (Host.reduce_andi_all _ _ _ _ _ h2 i),
    fun i => real_of_abs_lt_inf _ (Host.reduce_andi_all _ _ _ _ _ h3 i),
    fun i => real_of_abs_lt_inf _ (Host.reduce_andi_all _ _ _ _ _ h4 i),
    fun i => real_of_abs_lt_inf _ (Host.reduce_andi_all _ _ _ _ _ h5 i),
    fun i => real_of_abs_lt_inf _ (Host.reduce_andi_all _ _ _ _ _ h6 i),
    fun i => real_of_abs_lt_inf _ (Host.reduce_andi_all _ _ _ _ _ h7 i),
    fun i => nonneg_of_ge_zero _ (Host.reduce_andi_all _ _ _ _ _ h8 i)⟩

end Cert.FoldedNorm

end
-- ==== Proof.RefValue.lean ====
/-
  The reference's result, read at an index.

  Entry `(b, o)` of the reference's result is `(norm + y[b,o]) · y[b,o]` with
  `norm = ((Σₖ x[b,k]·W[o,k] + bias[o] − mean[o]) · rsqrt(var[o] + ε)) · γ[o] + β[o]`: the contraction runs over the second
  axis of both `x` and `W`, and every per-feature vector is broadcast along the batch axis, so at `(b, o)` it is read at `o`.
-/
import proofs.«410438_j57415122813212_3_alg».proof.Proof.Gen.ReferenceIdeal.Read
import proofs.«410438_j57415122813212_3_alg».proof.Proof.Law

noncomputable section

namespace Cert.FoldedNorm

open Idealize.ShloMosaic Idealize.ShloMosaic.ValueIdx Cert.ReferenceIdeal Cert.ReferenceIdeal.Read

variable [Cert.ReferenceIdeal.Facts]

/-- The contraction's left index at `(b, o)`, term `k`, is `(b, k)`. -/
theorem lidx_eq (i : S32768x512.Idx) (k : Fin 512) : lidx_main_v0 i k = ix2 (i 0) k :=
  funext fun a => Fin.ext (by match a with | ⟨0, _⟩ => rfl | ⟨1, _⟩ => rfl)

/-- The contraction's right index at `(b, o)`, term `k`, is `(o, k)`. -/
theorem ridx_eq (i : S32768x512.Idx) (k : Fin 512) : ridx_main_v0 i k = ix2 (i 1) k :=
  funext fun a => Fin.ext (by match a with | ⟨0, _⟩ => rfl | ⟨1, _⟩ => rfl)

/-- Each per-feature vector, broadcast to a row and then along the batch, is read at `(b, o)` at `o`. -/
theorem bias_idx (i : S32768x512.Idx) : idx_main_v1 (idx_main_v2 i) = ix1 (i 1) :=
  funext fun a => Fin.ext (by match a with | ⟨0, _⟩ => rfl)
theorem mean_idx (i : S32768x512.Idx) : idx_main_v7 (idx_main_v8 i) = ix1 (i 1) :=
  funext fun a => Fin.ext (by match a with | ⟨0, _⟩ => rfl)
theorem var_idx (i : S32768x512.Idx) : idx_main_v10 (idx_main_v11 i) = ix1 (i 1) :=
  funext fun a => Fin.ext (by match a with | ⟨0, _⟩ => rfl)
theorem gamma_idx (i : S32768x512.Idx) : idx_main_v13 (idx_main_v14 i) = ix1 (i 1) :=
  funext fun a => Fin.ext (by match a with | ⟨0, _⟩ => rfl)
theorem beta_idx (i : S32768x512.Idx) : idx_main_v16 (idx_main_v17 i) = ix1 (i 1) :=
  funext fun a => Fin.ext (by match a with | ⟨0, _⟩ => rfl)

/-- The reference's last stage is `refResult` of the arguments. -/
theorem ref_is_result (x0 x1 : (⟨S32768x512, .f32⟩ : BufTy).Contents (Elt Ideal))
    (x2 : (⟨S512x512, .f32⟩ : BufTy).Contents (Elt Ideal)) (x3 x4 x5 x6 x7 : (⟨S512, .f32⟩ : BufTy).Contents (Elt Ideal)) :
    val_main_v20 (F := Ideal) x0 x1 x2 x3 x4 x5 x6 x7 = refResult x0 x1 x2 x3 x4 x5 x6 x7 := by
  funext i
  simp only [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply, val_main_v5_apply,
    val_main_v4_apply, val_main_cst_apply, val_main_v3_apply, val_main_v2_apply, val_main_v1_apply, val_main_v0_apply,
    lidx_eq, ridx_eq, bias_idx, mean_idx, var_idx, gamma_idx, beta_idx]
  rfl

end Cert.FoldedNorm

end
-- ==== Proof.KernelArrays.lean ====
/-
  The two arrays the host prepares before the kernel launches.

  With `s[o] = rsqrt(var[o] + ε) · γ[o]`:
  * the scaled weight, transposed: entry `(k, o)` is `W[o,k] · s[o]` (the change of float format is the identity on the
    extended reals);
  * the folded bias, as a row: entry `(0, o)` is `(bias[o] − mean[o]) · s[o] + β[o]`.
  These are what the kernel's third and fourth operands hold when the region is entered.
-/
import proofs.«410438_j57415122813212_3_alg».proof.Proof.Gen.KernelIdeal.Frame
import Idealize.ShloMosaic.Lib.Pipeline.Value
import Idealize.ShloMosaic.Lib.ValueIdx
import Idealize.ShloMosaic.Lib.StableHlo.Run

noncomputable section

namespace Cert.FoldedNorm

open Idealize.ShloMosaic Idealize.ShloMosaic.ValueIdx Idealize.ShloMosaic.TcCoe Idealize.SL.Sem
open Cert.KernelIdeal Cert.KernelIdeal.Gen

/-- The per-feature scale `s = rsqrt(var + ε) · γ`. -/
def scaleVec (var γ : FVec Ideal S512 .f32) : FVec Ideal S512 .f32 :=
  mulf (Host.rsqrt (addf var (broadcastInDim S512 ![] bcast_S_S512 (constant (F := Ideal) S_ .f32 0x3727C5AC#32)))) γ

theorem scaleVec_apply (var γ : FVec Ideal S512 .f32) (o : Fin 512) :
    scaleVec var γ (ix1 o) = Ideal.rsqrt (var (ix1 o) + Ideal.ofBits .f32 0x3727C5AC#32) * γ (ix1 o) := rfl

/-- The weight scaled row by row by `s`, transposed, in the narrower float format. -/
def scaledWt (W : FVec Ideal S512x512 .f32) (var γ : FVec Ideal S512 .f32) : FVec Ideal S512x512 .bf16 :=
  truncf .bf16 (transpose S512x512 [1, 0]
    (mulf W (broadcastInDim S512x512 ![0, 1] bcast_S512x1_S512x512_0_1
      (broadcastInDim S512x1 ![0] bcast_S512_S512x1_0 (scaleVec var γ))))
    transposes_S512x512_S512x512_1_0) bitsLt_bf16_f32

/-- Entry `(k, o)` of the transposed scaled weight is `W[o,k] · s[o]`. -/
theorem scaledWt_apply (W : FVec Ideal S512x512 .f32) (var γ : FVec Ideal S512 .f32) (k o : Fin 512) :
    scaledWt W var γ (ix2 k o) = W (ix2 o k) * scaleVec var γ (ix1 o) := by
  unfold scaledWt
  rw [truncf_apply, transpose_apply [1, 0] _ transposes_S512x512_S512x512_1_0 (ix2 k o) (ix2 o k)
    (fun b => by match b with | ⟨0, _⟩ => rfl | ⟨1, _⟩ => rfl), mulf_apply]
  congr 1
  rw [broadcastInDim_apply _ bcast_S512x1_S512x512_0_1 _ (ix2 o k) (ix2 o (0 : Fin 1)) (fun a => match a with
      | ⟨0, _⟩ => by show o.val = if (512 : Nat) = 1 then 0 else o.val; rw [if_neg (by decide)]
      | ⟨1, _⟩ => by show 0 = if (1 : Nat) = 1 then 0 else k.val; rw [if_pos rfl]),
    broadcastInDim_apply _ bcast_S512_S512x1_0 _ (ix2 o (0 : Fin 1)) (ix1 o) (fun a => match a with
      | ⟨0, _⟩ => by show o.val = if (512 : Nat) = 1 then 0 else o.val; rw [if_neg (by decide)])]

/-- The folded bias `(bias − mean) · s + β`, laid out as one row. -/
def foldedBias (bias mean var γ β : FVec Ideal S512 .f32) : FVec Ideal S1x512 .f32 :=
  shapeCast S1x512 (addf (mulf (subf bias mean) (scaleVec var γ)) β) shapeCasts_S512_S1x512

/-- Entry `(0, o)` of the folded bias row. -/
theorem foldedBias_apply (bias mean var γ β : FVec Ideal S512 .f32) (z : Fin 1) (o : Fin 512) :
    foldedBias bias mean var γ β (ix2 z o)
      = (bias (ix1 o) - mean (ix1 o)) * scaleVec var γ (ix1 o) + β (ix1 o) := by
  unfold foldedBias
  rw [shapeCast_apply _ shapeCasts_S512_S1x512 (ix2 z o) (ix1 o) (by
    rw [Shape.rowMajor_val_one, Shape.rowMajor_val_two]
    show o.val = z.val * 512 + o.val
    have := z.isLt; omega)]
  rfl

variable (m : (ℓ : Loc nD τ sig) → Buf (Elt Ideal) ℓ)

/-- The kernel's third operand, as the region finds it, is the transposed scaled weight of the arguments. -/
theorem wt_array (c : Dev nD) :
    (V m c main_v8 : S512x512.Idx → Ideal .bf16)
      = scaledWt (m ((c : Thread nD τ).loc main_arg2)) (m ((c : Thread nD τ).loc main_arg5))
          (m ((c : Thread nD τ).loc main_arg6)) := by
  dsimp only [V, hostOps0]
  after_results
  rfl

/-- The kernel's fourth operand, as the region finds it, is the folded bias row of the arguments. -/
theorem bias_array (c : Dev nD) :
    (V m c main_v12 : S1x512.Idx → Ideal .f32)
      = foldedBias (m ((c : Thread nD τ).loc main_arg3)) (m ((c : Thread nD τ).loc main_arg4))
          (m ((c : Thread nD τ).loc main_arg5)) (m ((c : Thread nD τ).loc main_arg6))
          (m ((c : Thread nD τ).loc main_arg7)) := by
  dsimp only [V, hostOps0]
  after_results
  rfl

end Cert.FoldedNorm

end
-- ==== Proof.KernelPoint.lean ====
/-
  What the kernel body computes at one entry of its block.

  From a block of `x` (2048 rows), the whole transposed scaled weight `Wt`, the bias row and the matching block of `y`, entry
  `(p, q)` of the body's result is `((Σₖ x[p,k]·Wt[k,q]) + biasRow[0,q] + y[p,q]) · y[p,q]`: the matrix product contracts the
  second axis of the `x` block with the first axis of `Wt` into a zero accumulator, the bias row is broadcast down the rows, and
  the narrowing of `x` to the product's input format is the identity on the extended reals.
-/
import proofs.«410438_j57415122813212_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.FoldedNorm

open Idealize.ShloMosaic Idealize.ShloMosaic.ValueIdx Cert.KernelIdeal Cert.KernelIdeal.Gen

/-- The product's left operand index keeps the output's row. -/
theorem lhs_body_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The product's left operand index runs its second axis over the contraction. -/
theorem lhs_body_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
/-- The product's right operand index runs its first axis over the contraction. -/
theorem rhs_body_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
/-- The product's right operand index keeps the output's column. -/
theorem rhs_body_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The body's matrix product into the zero accumulator, at an entry: the row of the left operand against the column of
    the right. -/
theorem body_matmul_apply (a : FVec Ideal S2048x512 .bf16) (b : FVec Ideal S512x512 .bf16) (i : S2048x512.Idx) :
    matmul dot_S2048x512_S512x512_S2048x512_1_0_0_1_n_n none a b (constant S2048x512 .f32 0x00000000#32) i
      = ∑ k : Fin 512, a (ix2 (i 0) k) * b (ix2 k (i 1)) := by
  simp only [matmul]
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx i ((ValueIdx.contrEquiv1 dot_S2048x512_S512x512_S2048x512_1_0_0_1_n_n 512 rfl rfl).symm k) = ix2 (i 0) k := funext fun a => Fin.ext (by
    match a with
    | ⟨0, _⟩ => exact lhs_body_0 _ _
    | ⟨1, _⟩ => exact (lhs_body_1 _ _).trans hk)
  have er : dot_S2048x512_S512x512_S2048x512_1_0_0_1_n_n.rhsIdx i ((ValueIdx.contrEquiv1 dot_S2048x512_S512x512_S2048x512_1_0_0_1_n_n 512 rfl rfl).symm k) = ix2 k (i 1) := funext fun a => Fin.ext (by
    match a with
    | ⟨0, _⟩ => exact (rhs_body_0 _ _).trans hk
    | ⟨1, _⟩ => exact rhs_body_1 _ _)
  rw [el, er]
  rfl

/-- The body's result at entry `(p, q)` of its block. -/
theorem pay_apply (x0 x1 : Vec Ideal S2048x512 .f32) (x2 : Vec Ideal S512x512 .bf16) (x3 : Vec Ideal S1x512 .f32)
    (p : Fin 2048) (q : Fin 512) :
    k0_pay1 (F := Ideal) x0 x2 x3 x1 (ix2 p q)
      = ((∑ k : Fin 512, x0 (ix2 p k) * x2 (ix2 k q)) + x3 (ix2 (0 : Fin 1) q) + x1 (ix2 p q)) * x1 (ix2 p q) := by
  unfold k0_pay1
  rw [mulf_apply, addf_apply, addf_apply, body_matmul_apply, shapeCast_self,
    broadcastTo_apply _ broadcasts_S1x512_S2048x512 (ix2 p q) (ix2 (0 : Fin 1) q) (fun a => match a with
      | ⟨0, _⟩ => by show 0 = if (1 : Nat) = 1 then 0 else _; rw [if_pos rfl]
      | ⟨1, _⟩ => by show q.val = if (512 : Nat) = 1 then 0 else q.val; rw [if_neg (by decide)]),
    shapeCast_self]
  rfl

end Cert.FoldedNorm

end
-- ==== Proof.KernelValue.lean ====
/-
  The kernel's result array.

  The grid has 16 points; point `t` works on rows `2048·t … 2048·t + 2047` of `x`, `y` and the output, and at every point
  on the whole transposed scaled weight and the whole folded-bias row. So what point `t` writes back is block `t` of ONE
  array-wide function of the arguments, `kernelResult`; the 16 blocks tile the output, which therefore ends holding it.
-/
import proofs.«410438_j57415122813212_3_alg».proof.Proof.Gen.KernelIdeal.Value
import proofs.«410438_j57415122813212_3_alg».proof.Proof.KernelArrays
import proofs.«410438_j57415122813212_3_alg».proof.Proof.KernelPoint
import proofs.«410438_j57415122813212_3_alg».proof.Proof.Law

set_option maxRecDepth 16384

noncomputable section

namespace Cert.FoldedNorm

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The kernel's result as one function of the argument arrays on device `c`. -/
abbrev kernelArr (c : Dev nD) : S32768x512.Idx → EReal :=
  kernelResult (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- The block index maps over the grid: the `x` and `y` blocks move with the output block along the batch axis, the
    weight and the bias row stay put, and the output's block index is the point's. -/
theorem block_indices : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` computes at entry `(p, q)` of its block is `kernelResult` at that entry's place in the array: row
    `2048·t + p`, column `q`. -/
theorem point_entry (c : Dev nD) (t : Fin cfg0.N) (p : Fin 2048) (q : Fin 512) :
    k0_pay1 (F := Ideal) (iblk m c 0 t) (iblk m c 2 t) (iblk m c 3 t) (iblk m c 1 t) (ix2 p q)
      = kernelArr m c (((cfg0.win 4).blk t).view.emb (ix2 p q)) := by
  obtain ⟨e00, e01, e10, e11, e20, e21, e30, e31, e40, e41⟩ := block_indices t
  have hN : cfg0.N = 16 := N_0
  have ht : t.val < 16 := by have := t.isLt; omega
  have hp : p.val < 2048 := p.isLt
  obtain ⟨R, hR⟩ : ∃ R : Fin 32768, R.val = t.val * 2048 + p.val := ⟨⟨t.val * 2048 + p.val, by omega⟩, rfl⟩
  -- the entry's place in the output array
  have hi : ((cfg0.win 4).blk t).view.emb (ix2 p q) = ix2 R q := by
    funext a; apply Fin.ext
    match a with
    | ⟨0, _⟩ => show win0_4.index t (0 : Fin 2) * 2048 + 1 * p.val = R.val; omega
    | ⟨1, _⟩ => show win0_4.index t (1 : Fin 2) * 512 + 1 * q.val = q.val; omega
  rw [hi, pay_apply (iblk m c 0 t) (iblk m c 1 t) (iblk m c 2 t) (iblk m c 3 t) p q]
  -- each block read, as its array read at the entry's place
  have hx : ∀ k : Fin 512, iblk m c 0 t (ix2 p k) = m ((c : Thread nD τ).loc main_arg0) (ix2 R k) := fun k => by
    show V m c main_arg0 (((cfg0.win 0).blk t).view.emb (ix2 p k)) = _
    rw [V_main_arg0]
    refine congrArg _ (funext fun a => Fin.ext ?_)
    match a with
    | ⟨0, _⟩ => show win0_0.index t (0 : Fin 2) * 2048 + 1 * p.val = R.val; omega
    | ⟨1, _⟩ => show win0_0.index t (1 : Fin 2) * 512 + 1 * k.val = k.val; omega
  have hy : iblk m c 1 t (ix2 p q) = m ((c : Thread nD τ).loc main_arg1) (ix2 R q) := by
    show V m c main_arg1 (((cfg0.win 1).blk t).view.emb (ix2 p q)) = _
    rw [V_main_arg1]
    refine congrArg _ (funext fun a => Fin.ext ?_)
    match a with
    | ⟨0, _⟩ => show win0_1.index t (0 : Fin 2) * 2048 + 1 * p.val = R.val; omega
    | ⟨1, _⟩ => show win0_1.index t (1 : Fin 2) * 512 + 1 * q.val = q.val; omega
  have hw : ∀ k : Fin 512, iblk m c 2 t (ix2 k q)
      = scaledWt (m ((c : Thread nD τ).loc main_arg2)) (m ((c : Thread nD τ).loc main_arg5))
          (m ((c : Thread nD τ).loc main_arg6)) (ix2 k q) := fun k => by
    show V m c main_v8 (((cfg0.win 2).blk t).view.emb (ix2 k q)) = _
    rw [wt_array]
    refine congrArg _ (funext fun a => Fin.ext ?_)
    match a with
    | ⟨0, _⟩ => show win0_2.index t (0 : Fin 2) * 512 + 1 * k.val = k.val; omega
    | ⟨1, _⟩ => show win0_2.index t (1 : Fin 2) * 512 + 1 * q.val = q.val; omega
  have hb : iblk m c 3 t (ix2 (0 : Fin 1) q)
      = foldedBias (m ((c : Thread nD τ).loc main_arg3)) (m ((c : Thread nD τ).loc main_arg4))
          (m ((c : Thread nD τ).loc main_arg5)) (m ((c : Thread nD τ).loc main_arg6))
          (m ((c : Thread nD τ).loc main_arg7)) (ix2 (0 : Fin 1) q) := by
    show V m c main_v12 (((cfg0.win 3).blk t).view.emb (ix2 (0 : Fin 1) q)) = _
    rw [bias_array]
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * q.val = q.val; omega
  simp only [hx, hy, hw, hb, scaledWt_apply, foldedBias_apply, scaleVec_apply]
  rfl

/-- What point `t` writes back is block `t` of `kernelResult` of the arguments. -/
theorem flushed_eq (c : Dev nD) (t : Fin cfg0.N) :
    (dats m 0 c).flushed 4 t = ((cfg0.win 4).blk t).view.read (Elt Ideal) (kernelArr m c) := by
  rw [Cert.KernelIdeal.Value.flushed4]
  unfold out0_4
  rw [View.canon_unit_zero origin_zero]
  simp only [View.ld_unit_zero (S := S2048x512) origin_zero, View.ld_unit_zero (S := S512x512) origin_zero,
    View.ld_unit_zero (S := S1x512) origin_zero]
  funext j
  show k0_pay1 (F := Ideal) (iblk m c 0 t) (iblk m c 2 t) (iblk m c 3 t) (iblk m c 1 t) j
    = kernelArr m c (((cfg0.win 4).blk t).view.emb j)
  have hj : j = ix2 (j 0) (j 1) := eq_ix2 j
  rw [hj]
  exact point_entry m c t (j 0) (j 1)

/-- An index of the output is in point `t`'s block iff its row lies in the block's 2048 rows. -/
theorem mem_block (t : Fin cfg0.N) (i : S32768x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v13).slice (win0_4.rect t)).set ↔ _
  rw [View.set_slice_whole, Rect.mem_set_unit]
  exact Iff.rfl

/-- Every index of the output lies in the block of the point numbered by its row divided by 2048. -/
theorem covered (i : S32768x512.Idx) :
    ∃ t : Fin cfg0.N, (cfg0.win 4).flush t = true ∧ i ∈ ((cfg0.win 4).blk t).view.set := by
  have hi0 : (i 0).val < 32768 := (i 0).isLt
  have hi1 : (i 1).val < 512 := (i 1).isLt
  have hN : cfg0.N = 16 := N_0
  refine ⟨⟨(i 0).val / 2048, by rw [hN]; omega⟩, flush0_4 _, ?_⟩
  rw [mem_block]
  obtain ⟨-, -, -, -, -, -, -, -, e40, e41⟩ := block_indices ⟨(i 0).val / 2048, by rw [hN]; omega⟩
  intro a
  match a with
  | ⟨0, _⟩ =>
    show win0_4.index _ (0 : Fin 2) * 2048 ≤ (i 0).val ∧ (i 0).val < win0_4.index _ (0 : Fin 2) * 2048 + 2048
    rw [e40]; show (i 0).val / 2048 * 2048 ≤ (i 0).val ∧ (i 0).val < (i 0).val / 2048 * 2048 + 2048; omega
  | ⟨1, _⟩ =>
    show win0_4.index _ (1 : Fin 2) * 512 ≤ (i 1).val ∧ (i 1).val < win0_4.index _ (1 : Fin 2) * 512 + 512
    rw [e41]; omega

/-- The output array after the run is `kernelResult` of the arguments. -/
theorem final (c : Dev nD) : (dats m 0 c).arrAt 4 cfg0.N = kernelArr m c :=
  (dats m 0 c).arrAt_eq_of_cover 4 (kernelArr m c) (fun t _ => flushed_eq m c t) covered

/-- The kernel's run, with the output at `kernelResult` of the arguments and the arguments unchanged. -/
theorem kernel_run : θ_run defs (onTc (τ := τ) (main (F := Ideal))) ⟨m, fun _ => 0, ρ⟩ fun r => ∀ c : Dev nD,
      r.2.mem ((c : Thread nD τ).loc main_v13) = kernelArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.FoldedNorm

end
-- ==== Proof.lean ====
/-
  The kernel computes `(x · W'ᵀ + b' + y) · y` block by block over the batch, where the host has folded a per-feature
  normalisation into the weight and the bias beforehand: `s = rsqrt(var + ε) · γ`, `W' = W · s` row by row,
  `b' = (bias − mean) · s + β`. The reference computes `((x · Wᵀ + bias − mean) · rsqrt(var + ε) · γ + β + y) · y`.

  Over the extended reals the two are the same function of the arguments wherever every entry of `x`, `W`, `bias`, `mean`,
  `var`, `γ`, `β` is a real number and `var ≥ 0`: then `var + ε > 0`, so `rsqrt(var + ε)` is a positive real and `s`
  distributes over the sum and over `bias − mean` (Law). The precondition gives exactly that (Domain). The kernel's
  output array ends holding the folded form (KernelArrays, KernelPoint, KernelValue); the reference's run ends at its own
  form (RefValue). The three programs terminate and leave their arguments unchanged; the idealization rewrote nothing.
-/
import proofs.«410438_j57415122813212_3_alg».proof.Defs
import proofs.«410438_j57415122813212_3_alg».proof.Proof.Gen.Kernel
import proofs.«410438_j57415122813212_3_alg».proof.Proof.Gen.Kernel.Skeleton
import proofs.«410438_j57415122813212_3_alg».proof.Proof.Gen.Kernel.Launch
import proofs.«410438_j57415122813212_3_alg».proof.Proof.Gen.Kernel.Points
import proofs.«410438_j57415122813212_3_alg».proof.Proof.Gen.Kernel.Frame
import proofs.«410438_j57415122813212_3_alg».proof.Proof.Gen.KernelIdeal
import proofs.«410438_j57415122813212_3_alg».proof.Proof.Gen.KernelIdeal.Skeleton
import proofs.«410438_j57415122813212_3_alg».proof.Proof.Gen.KernelIdeal.Launch
import proofs.«410438_j57415122813212_3_alg».proof.Proof.Gen.KernelIdeal.Points
import proofs.«410438_j57415122813212_3_alg».proof.Proof.Gen.KernelIdeal.Frame
import proofs.«410438_j57415122813212_3_alg».proof.Proof.Gen.ReferenceIdeal
import proofs.«410438_j57415122813212_3_alg».proof.Proof.Gen.Pre_finite_inputs
import proofs.«410438_j57415122813212_3_alg».proof.Proof.Gen.KernelIdeal.Value
import proofs.«410438_j57415122813212_3_alg».proof.Proof.Gen.ReferenceIdeal.Run
import proofs.«410438_j57415122813212_3_alg».proof.Proof.Gen.ReferenceIdeal.Read
import Idealize.ShloMosaic.Adequacy
import Idealize.ShloMosaic.Init
import proofs.«410438_j57415122813212_3_alg».proof.Proof.Law
import proofs.«410438_j57415122813212_3_alg».proof.Proof.Domain
import proofs.«410438_j57415122813212_3_alg».proof.Proof.RefValue
import proofs.«410438_j57415122813212_3_alg».proof.Proof.KernelValue

noncomputable section

namespace Cert.Proof

open Idealize.ShloMosaic Idealize.SL.Sem Cert.Kernel

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both programs end with the folded form of the
    arguments: the kernel by its blocks, the reference because its own form equals the folded one where the entries are
    real and `var ≥ 0`. -/
theorem algebraic : Cert.algebraic_KernelIdeal_ReferenceIdeal := by
  intro m ρ m' ρ' hpre hagree
  refine ⟨fun c => Cert.FoldedNorm.kernelArr m c, Cert.FoldedNorm.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.FoldedNorm.ref_is_result]
  obtain ⟨a0, a1, a2, a3, a4, a5, a6, a7⟩ := hagree c
  rw [a0, a1, a2, a3, a4, a5, a6, a7]
  obtain ⟨hx, hW, hb, hm, hv, hg, hβ, hv0⟩ := Cert.FoldedNorm.of_pre _ _ _ _ _ _ _ _ (hpre c)
  exact (Cert.FoldedNorm.kernelResult_eq _ _ _ _ _ _ _ _ hx hW hb hm hv hg hβ hv0).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
